-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096x8 : S_.BroadcastsInDim S1x4096x8 (![] : Fin 0 → Fin S1x4096x8.rank)
  reducesTo_S1x4096x8_S_d0_1_2 : S1x4096x8.ReducesTo [0, 1, 2] S_
  bcast_S_S8x4096x1 : S_.BroadcastsInDim S8x4096x1 (![] : Fin 0 → Fin S8x4096x1.rank)
  reducesTo_S8x4096x1_S_d0_1_2 : S8x4096x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1x4096x8 .f32) (main_arg2 : FVec F S8x4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x4096x8 .f32 := Host.absf main_arg1
  let main_cst_0 : FVec F S_ .f32 := constant S_ .f32 0x7F800000#32
  let main_v5 : FVec F S1x4096x8 .f32 := broadcastInDim S1x4096x8 ![] bcast_S_S1x4096x8 main_cst_0
  let main_v6 : IVec S1x4096x8 1 := cmpf .olt main_v4 main_v5
  let main_c_1 : IVec S_ 1 := constantI S_ 1 1#1
  let main_v7 : IVec S_ 1 := (fun x v => Host.reduce IntOp.andi x v reducesTo_S1x4096x8_S_d0_1_2 h_S_) main_v6 main_c_1
  let main_v8 : IVec S_ 1 := andi main_v3 main_v7
  let main_v9 : FVec F S8x4096x1 .f32 := Host.absf main_arg2
  let main_cst_2 : FVec F S_ .f32 := constant S_ .f32 0x7F800000#32
  let main_v10 : FVec F S8x4096x1 .f32 := broadcastInDim S8x4096x1 ![] bcast_S_S8x4096x1 main_cst_2
  let main_v11 : IVec S8x4096x1 1 := cmpf .olt main_v9 main_v10
  let main_c_3 : IVec S_ 1 := constantI S_ 1 1#1
  let main_v12 : IVec S_ 1 := (fun x v => Host.reduce IntOp.andi x v reducesTo_S8x4096x1_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S4096x8 : Shape := ⟨2, ![4096, 8]⟩
abbrev S8x4096 : Shape := ⟨2, ![8, 4096]⟩
abbrev S1x4096 : Shape := ⟨2, ![1, 4096]⟩
abbrev S512x4096 : Shape := ⟨2, ![512, 4096]⟩
abbrev S512x8 : Shape := ⟨2, ![512, 8]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x8, .f32⟩
  | .hbm, ⟨2, _⟩ => ⟨S8x4096x1, .f32⟩
  | .hbm, ⟨3, _⟩ => ⟨S4096, .f32⟩
  | .hbm, ⟨4, _⟩ => ⟨S4096x8, .f32⟩
  | .hbm, ⟨5, _⟩ => ⟨S8x4096, .f32⟩
  | .hbm, ⟨6, _⟩ => ⟨S8x4096, .f32⟩
  | .hbm, ⟨7, _⟩ => ⟨S4096x8, .f32⟩
  | .hbm, ⟨8, _⟩ => ⟨S1x4096, .f32⟩
  | .hbm, ⟨9, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x8, .f32⟩
  | .local _ .vmem, ⟨3, _⟩ => ⟨S8x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x4096x8_S4096x8 : S1x4096x8.ShapeCasts S4096x8
  shapeCasts_S8x4096x1_S8x4096 : S8x4096x1.ShapeCasts S8x4096
  transposes_S4096x8_S8x4096_1_0 : S4096x8.Transposes [1, 0] S8x4096
  transposes_S8x4096_S4096x8_1_0 : S8x4096.Transposes [1, 0] S4096x8
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x4096_S4096x8_S512x8_1_0_0_1_n_n_wf : DotDims.WF S512x4096 S4096x8 S512x8 [1] [0] [0] [1] [] []
  dot_S512x8_S8x4096_S512x4096_1_0_0_1_n_n_wf : DotDims.WF S512x8 S8x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .f32 = 32 ∨ (Rect.block (s := S4096x8) S4096x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S4096x8_S512x8_1_0_0_1_n_n : DotDims S512x4096 S4096x8 S512x8 where
  lhsContracting := [1]
  rhsContracting := [0]
  lhsNonContracting := [0]
  rhsNonContracting := [1]
  lhsBatch := []
  rhsBatch := []
  wf := dot_S512x4096_S4096x8_S512x8_1_0_0_1_n_n_wf
def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S4096x8 : Shape := ⟨2, ![4096, 8]⟩
abbrev S8x4096 : Shape := ⟨2, ![8, 4096]⟩
abbrev S4096x4096 : Shape := ⟨2, ![4096, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x8, .f32⟩
  | .hbm, ⟨2, _⟩ => ⟨S8x4096x1, .f32⟩
  | .hbm, ⟨3, _⟩ => ⟨S4096, .f32⟩
  | .hbm, ⟨4, _⟩ => ⟨S4096x8, .f32⟩
  | .hbm, ⟨5, _⟩ => ⟨S8x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1x4096x8_S4096x8 : S1x4096x8.ShapeCasts S4096x8
  shapeCasts_S8x4096x1_S8x4096 : S8x4096x1.ShapeCasts S8x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x8_S8x4096_S4096x4096_1_0_0_1_n_n_wf : DotDims.WF S4096x8 S8x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  A linear layer whose weight matrix has rank at most 8, written two ways.

  The weight is the product of two thin factors, `u` (4096 outputs by 8) and `w` (8 by 4096 inputs), each stored
  with a spare axis of length one. For a token `p` and an output feature `o`:

  * `factored`: first project the token onto the 8 rank directions, `y r = ∑ k, x (p, k) * w (r, k)`, then expand,
    `∑ r, y r * u (o, r)`, and add the bias;
  * `dense`: first form the weight entry `∑ r, u (o, r) * w (r, k)`, then contract it against the token,
    `∑ k, x (p, k) * (∑ r, u (o, r) * w (r, k))`, and add the bias.

  Both are the double sum `∑ r k, x (p, k) * w (r, k) * u (o, r)` plus the bias. Passing from one to the other
  distributes a product over a sum and exchanges the two sums. On the extended reals distributivity fails at the
  infinities, so the law is proved for entries that are real numbers, by carrying the whole identity into ℝ.
-/
import Idealize.ShloMosaic.Lib.ValueIdx
import Idealize.ShloMosaic.PureOps.Ideal.Laws

noncomputable section

namespace Cert.LowRank

open Idealize.ShloMosaic Idealize.ShloMosaic.ValueIdx

/-- Tokens by input features. -/
abbrev SX : Shape := ⟨2, ![8192, 4096]⟩
/-- The output-side factor: a spare leading axis, output features, rank. -/
abbrev SU : Shape := ⟨3, ![1, 4096, 8]⟩
/-- The input-side factor: rank, input features, a spare trailing axis. -/
abbrev SW : Shape := ⟨3, ![8, 4096, 1]⟩
/-- The bias, one entry per output feature. -/
abbrev SB : Shape := ⟨1, ![4096]⟩

/-- Project onto the rank directions, then expand: the entry at token `p`, output feature `o`. -/
def factoredAt (x : SX.Idx → EReal) (u : SU.Idx → EReal) (w : SW.Idx → EReal) (b : SB.Idx → EReal)
    (p : Fin 8192) (o : Fin 4096) : EReal :=
  (∑ r : Fin 8, (∑ k : Fin 4096, x (ix2 p k) * w (ix3 r k 0)) * u (ix3 0 o r)) + b (ix1 o)

/-- Form the weight entry, then contract: the entry at token `p`, output feature `o`. -/
def denseAt (x : SX.Idx → EReal) (u : SU.Idx → EReal) (w : SW.Idx → EReal) (b : SB.Idx → EReal)
    (p : Fin 8192) (o : Fin 4096) : EReal :=
  (∑ k : Fin 4096, x (ix2 p k) * ∑ r : Fin 8, u (ix3 0 o r) * w (ix3 r k 0)) + b (ix1 o)

/-- The whole output array, in the factored arrangement. -/
def factored (x : SX.Idx → EReal) (u : SU.Idx → EReal) (w : SW.Idx → EReal) (b : SB.Idx → EReal) : SX.Idx → EReal :=
  fun i => factoredAt x u w b (i 0) (i 1)

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The regrouping law, for real entries: `∑ r, (∑ k, x k * w r k) * u r = ∑ k, x k * ∑ r, u r * w r k`. -/
theorem regroup {ι κ : Type*} [Fintype ι] [Fintype κ] (x : ι → EReal) (w : κ → ι → EReal) (u : κ → EReal)
    (hx : ∀ k, ∃ a : ℝ, x k = a) (hw : ∀ r k, ∃ a : ℝ, w r k = a) (hu : ∀ r, ∃ a : ℝ, u r = a) :
    ∑ r, (∑ k, x k * w r k) * u r = ∑ k, x k * ∑ r, u r * w r k := by
  choose x' hx' using hx
  choose w' hw' using hw
  choose u' hu' using hu
  simp only [hx', hw', hu', ← EReal.coe_mul, ← coe_sum]
  refine congrArg _ ?_
  simp only [Finset.sum_mul, Finset.mul_sum]
  rw [Finset.sum_comm]
  exact Finset.sum_congr rfl fun k _ => Finset.sum_congr rfl fun r _ => by ring

/-- For real entries of `x`, `u` and `w` (the bias may be anything) the two arrangements agree. -/
theorem factoredAt_eq_denseAt (x : SX.Idx → EReal) (u : SU.Idx → EReal) (w : SW.Idx → EReal) (b : SB.Idx → EReal)
    (hx : ∀ i, ∃ a : ℝ, x i = a) (hu : ∀ i, ∃ a : ℝ, u i = a) (hw : ∀ i, ∃ a : ℝ, w i = a)
    (p : Fin 8192) (o : Fin 4096) : factoredAt x u w b p o = denseAt x u w b p o := by
  unfold factoredAt denseAt
  exact congrArg (· + b (ix1 o))
    (regroup (fun k => x (ix2 p k)) (fun r k => w (ix3 r k 0)) (fun r => u (ix3 0 o r))
      (fun _ => hx _) (fun _ _ => hw _) (fun _ => hu _))

end Cert.LowRank

end
-- ==== Proof.Finite.lean ====
/-
  The precondition says every entry of every input is a real number.

  The precondition is the conjunction, over the four inputs, of "every entry has absolute value below +∞". Each
  conjunct is a reduction by `and` over all axes, so every entry passes the test; and an extended real whose
  absolute value `max x (-x)` is strictly below `⊤` is neither `⊤` nor `⊥`, hence a real number.
-/
import proofs.«141252_j10531259810490_1_alg».proof.Pre_finite_inputs
import proofs.«141252_j10531259810490_1_alg».proof.Proof.Gen.Pre_finite_inputs
import Idealize.ShloMosaic.Lib.ReduceAll
import Idealize.ShloMosaic.Lib.ValueIdx
import Idealize.ShloMosaic.PureOps.Ideal

noncomputable section

namespace Cert.LowRank.Finite

open Idealize.ShloMosaic Cert.Pre_finite_inputs

/-- The rank-0 shape has one index. -/
instance : Subsingleton S_.Idx := ⟨fun _ _ => funext fun d => d.elim0⟩

/-- The word the test compares against denotes +∞. -/
theorem inf_word : Ideal.ofBits .f32 0x7F800000#32 = (⊤ : EReal) := by simp [Ideal.ofBits, Ideal.ieee]

/-- An extended real whose absolute value is strictly below +∞ is a real number. -/
theorem real_of_abs_lt_top (x : EReal) (h : Ideal.cmp .olt (max x (-x)) (Ideal.ofBits .f32 0x7F800000#32) = 1#1) :
    ∃ a : ℝ, x = a := by
  rw [inf_word] at h
  induction x using EReal.rec with
  | bot => simp [Ideal.cmp] at h
  | coe a => exact ⟨a, rfl⟩
  | top => simp [Ideal.cmp] at h

/-- Under the precondition every entry of the tokens, of both factors and of the bias is a real number. -/
theorem real_of_pre (x : FVec Ideal S8192x4096 .f32) (u : FVec Ideal S1x4096x8 .f32) (w : FVec Ideal S8x4096x1 .f32)
    (b : FVec Ideal S4096 .f32) (h : fn (F := Ideal) x u w b = fun _ => 1#1) :
    (∀ i, ∃ a : ℝ, x i = a) ∧ (∀ i, ∃ a : ℝ, u i = a) ∧ (∀ i, ∃ a : ℝ, w i = a) ∧ (∀ i, ∃ a : ℝ, b i = a) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨hx, hu⟩ := IntOp.andi_eq_one.1 h01
  exact ⟨fun i => real_of_abs_lt_top _ (Host.reduce_andi_all _ _ _ _ _ hx i),
    fun i => real_of_abs_lt_top _ (Host.reduce_andi_all _ _ _ _ _ hu i),
    fun i => real_of_abs_lt_top _ (Host.reduce_andi_all _ _ _ _ _ h2 i),
    fun i => real_of_abs_lt_top _ (Host.reduce_andi_all _ _ _ _ _ h3 i)⟩

end Cert.LowRank.Finite

end
-- ==== Proof.RefValue.lean ====
/-
  The reference computes the dense arrangement.

  The reference reshapes both factors to matrices (dropping each spare axis), multiplies them into the full
  4096 by 4096 weight, transposes it, contracts the tokens against it and adds the bias broadcast along the token
  axis. Read at token `p` and output feature `o`: the contraction index `k` meets the transposed weight at
  `(k, o)`, which is the weight at `(o, k)`, which is `∑ r, u (0, o, r) * w (r, k, 0)` once the reshapes are read
  back through their row-major positions.
-/
import proofs.«141252_j10531259810490_1_alg».proof.Proof.Gen.ReferenceIdeal.Read
import proofs.«141252_j10531259810490_1_alg».proof.Proof.Spec

noncomputable section

namespace Cert.LowRank.RefValue

open Idealize.ShloMosaic Idealize.ShloMosaic.ValueIdx Cert.ReferenceIdeal Cert.ReferenceIdeal.Read

/-- The output-side factor, reshaped to a matrix and read at `(o, r)`, is the stored entry `(0, o, r)`. -/
theorem factorU_at (u : FVec Ideal S1x4096x8 .f32) (o : Fin 4096) (r : Fin 8) :
    val_main_v0 (F := Ideal) u (ix2 o r) = u (ix3 0 o r) := by
  rw [val_main_v0_apply]
  refine congrArg u (funext fun a => Fin.ext ?_)
  match a with
  | ⟨0, _⟩ => rfl
  | ⟨1, _⟩ => show (o.val * 8 + r.val) / 8 % 4096 = o.val; omega
  | ⟨2, _⟩ => show (o.val * 8 + r.val) % 8 = r.val; omega

/-- The input-side factor, reshaped to a matrix and read at `(r, k)`, is the stored entry `(r, k, 0)`. -/
theorem factorW_at (w : FVec Ideal S8x4096x1 .f32) (r : Fin 8) (k : Fin 4096) :
    val_main_v1 (F := Ideal) w (ix2 r k) = w (ix3 r k 0) := by
  rw [val_main_v1_apply]
  refine congrArg w (funext fun a => Fin.ext ?_)
  match a with
  | ⟨0, _⟩ => show (r.val * 4096 + k.val) / 4096 = r.val; omega
  | ⟨1, _⟩ => show (r.val * 4096 + k.val) / 1 % 4096 = k.val; omega
  | ⟨2, _⟩ => rfl

/-- The transposed weight at `(k, o)` is the weight entry of output `o` and input `k`. -/
theorem weightT_at (u : FVec Ideal S1x4096x8 .f32) (w : FVec Ideal S8x4096x1 .f32) (k o : Fin 4096) :
    val_main_v3 (F := Ideal) u w (ix2 k o) = ∑ r : Fin 8, u (ix3 0 o r) * w (ix3 r k 0) := by
  rw [val_main_v3_apply, val_main_v2_apply]
  refine Finset.sum_congr rfl fun r _ => ?_
  have el : lidx_main_v2 (idx_main_v3 (ix2 k o)) r = ix2 o r :=
    funext fun a => Fin.ext (by match a with | ⟨0, _⟩ => rfl | ⟨1, _⟩ => rfl)
  have er : ridx_main_v2 (idx_main_v3 (ix2 k o)) r = ix2 r k :=
    funext fun a => Fin.ext (by match a with | ⟨0, _⟩ => rfl | ⟨1, _⟩ => rfl)
  rw [el, er, factorU_at, factorW_at]

/-- The reference's result at token `p` and output feature `o` is the dense arrangement. -/
theorem result_at (x : FVec Ideal S8192x4096 .f32) (u : FVec Ideal S1x4096x8 .f32) (w : FVec Ideal S8x4096x1 .f32)
    (b : FVec Ideal S4096 .f32) (p : Fin 8192) (o : Fin 4096) :
    val_main_v7 (F := Ideal) x u w b (ix2 p o) = Cert.LowRank.denseAt x u w b p o := by
  rw [val_main_v7_apply, val_main_v4_apply, val_main_v6_apply, val_main_v5_apply]
  unfold Cert.LowRank.denseAt
  have eb : idx_main_v5 (idx_main_v6 (ix2 p o)) = ix1 o :=
    funext fun a => Fin.ext (by match a with | ⟨0, _⟩ => rfl)
  rw [eb]
  show (∑ k : Fin 4096, _) + _ = (∑ k : Fin 4096, _) + _
  refine congrArg (· + b (ix1 o)) (Finset.sum_congr rfl fun k _ => ?_)
  have el : lidx_main_v4 (ix2 p o) k = ix2 p k :=
    funext fun a => Fin.ext (by match a with | ⟨0, _⟩ => rfl | ⟨1, _⟩ => rfl)
  have er : ridx_main_v4 (ix2 p o) k = ix2 k o :=
    funext fun a => Fin.ext (by match a with | ⟨0, _⟩ => rfl | ⟨1, _⟩ => rfl)
  rw [el, er, weightT_at]

end Cert.LowRank.RefValue

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Payload.lean ====
/-
  What the kernel body computes on one block of 512 tokens.

  The body loads a block of tokens `x` (512 by 4096), the input-side factor as a matrix `a` (4096 by 8), the
  output-side factor as a matrix `c` (8 by 4096) and the bias as a row `d` (1 by 4096). At the ideal instance the
  narrowing casts are the identity and each matrix product into a zero accumulator is a plain sum, so the stored
  value at row `p`, column `o` of the block is `(∑ r, (∑ k, x (p, k) * a (k, r)) * c (r, o)) + d (0, o)`.
-/
import proofs.«141252_j10531259810490_1_alg».proof.Proof.Gen.KernelIdeal.Skeleton
import proofs.«141252_j10531259810490_1_alg».proof.Proof.LibDot2
import Idealize.ShloMosaic.Lib.Pipeline.Value
import Idealize.ShloMosaic.Lib.ValueIdx
import Idealize.ShloMosaic.PureOps.Ideal.Laws

noncomputable section

namespace Cert.LowRank.Payload

open Idealize.ShloMosaic Idealize.ShloMosaic.ValueIdx Cert.KernelIdeal Cert.KernelIdeal.Gen

/-! ## The two products' dimension numbers, coordinate by coordinate -/

theorem lhs_proj_0 (i : S512x8.Idx) (q : dot_S512x4096_S4096x8_S512x8_1_0_0_1_n_n.contr.Idx) :
    (dot_S512x4096_S4096x8_S512x8_1_0_0_1_n_n.lhsIdx i q 0).val = (i 0).val := by
  unfold DotDims.lhsIdx
  rw [dif_neg (show ¬(0 : Fin S512x4096.rank) ∈ dot_S512x4096_S4096x8_S512x8_1_0_0_1_n_n.lhsBatch by decide), dif_pos (show (0 : Fin S512x4096.rank) ∈ dot_S512x4096_S4096x8_S512x8_1_0_0_1_n_n.lhsNonContracting by decide)]
  rfl
theorem lhs_proj_1 (i : S512x8.Idx) (q : dot_S512x4096_S4096x8_S512x8_1_0_0_1_n_n.contr.Idx) :
    (dot_S512x4096_S4096x8_S512x8_1_0_0_1_n_n.lhsIdx i q 1).val = (q ⟨0, by decide⟩).val :=
  dot_S512x4096_S4096x8_S512x8_1_0_0_1_n_n.lhsIdx_val_of_single rfl i q
theorem rhs_proj_0 (i : S512x8.Idx) (q : dot_S512x4096_S4096x8_S512x8_1_0_0_1_n_n.contr.Idx) :
    (dot_S512x4096_S4096x8_S512x8_1_0_0_1_n_n.rhsIdx i q 0).val = (q ⟨0, by decide⟩).val :=
  dot_S512x4096_S4096x8_S512x8_1_0_0_1_n_n.rhsIdx_val_of_single rfl i q
theorem rhs_proj_1 (i : S512x8.Idx) (q : dot_S512x4096_S4096x8_S512x8_1_0_0_1_n_n.contr.Idx) :
    (dot_S512x4096_S4096x8_S512x8_1_0_0_1_n_n.rhsIdx i q 1).val = (i 1).val := by
  unfold DotDims.rhsIdx
  rw [dif_neg (show ¬(1 : Fin S4096x8.rank) ∈ dot_S512x4096_S4096x8_S512x8_1_0_0_1_n_n.rhsBatch by decide), dif_pos (show (1 : Fin S4096x8.rank) ∈ dot_S512x4096_S4096x8_S512x8_1_0_0_1_n_n.rhsNonContracting by decide)]
  rfl

theorem lhs_exp_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhs_exp_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhs_exp_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhs_exp_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-! ## The two products as sums -/

/-- The projection onto the rank directions, at row `p` and direction `r`. -/
theorem proj_at (l : FVec Ideal S512x4096 .bf16) (a : FVec Ideal S4096x8 .bf16) (p : Fin 512) (r : Fin 8) :
    matmul dot_S512x4096_S4096x8_S512x8_1_0_0_1_n_n none l a (constant (F := Ideal) S512x8 .f32 0x00000000#32) (ix2 p r)
      = ∑ k : Fin 4096, l (ix2 p k) * a (ix2 k r) :=
  Cert.Lib.Dot2.matmul_zero_ix2 dot_S512x4096_S4096x8_S512x8_1_0_0_1_n_n none rfl rfl
    lhs_proj_0 lhs_proj_1 rhs_proj_0 rhs_proj_1 l a p r

/-- The expansion back to output features, at row `p` and feature `o`. -/
theorem exp_at (y : FVec Ideal S512x8 .bf16) (c : FVec Ideal S8x4096 .bf16) (p : Fin 512) (o : Fin 4096) :
    matmul dot_S512x8_S8x4096_S512x4096_1_0_0_1_n_n none y c (constant (F := Ideal) S512x4096 .f32 0x00000000#32) (ix2 p o)
      = ∑ r : Fin 8, y (ix2 p r) * c (ix2 r o) :=
  Cert.Lib.Dot2.matmul_zero_ix2 dot_S512x8_S8x4096_S512x4096_1_0_0_1_n_n none rfl rfl
    lhs_exp_0 lhs_exp_1 rhs_exp_0 rhs_exp_1 y c p o

/-- The bias row broadcast down the block, at row `p` and feature `o`, is the row's entry `(0, o)`. -/
theorem bias_at (d : FVec Ideal S1x4096 .f32) (p : Fin 512) (o : Fin 4096) :
    broadcastTo S512x4096 d broadcasts_S1x4096_S512x4096 (ix2 p o) = d (ix2 0 o) :=
  broadcastTo_apply d broadcasts_S1x4096_S512x4096 (ix2 p o) (ix2 0 o) (fun a => by
    match a with
    | ⟨0, _⟩ => show (0 : Nat) = if (1 : Nat) = 1 then 0 else p.val; rw [if_pos rfl]
    | ⟨1, _⟩ => show o.val = if (4096 : Nat) = 1 then 0 else o.val; rw [if_neg (by decide)])

/-! ## The stored value -/

/-- The block the body stores, at row `p` and output feature `o`. -/
theorem pay_at (x : Vec Ideal S512x4096 .f32) (a : Vec Ideal S4096x8 .f32) (c : Vec Ideal S8x4096 .f32)
    (d : Vec Ideal S1x4096 .f32) (p : Fin 512) (o : Fin 4096) :
    k0_pay1 (F := Ideal) x a c d (ix2 p o)
      = (∑ r : Fin 8, (∑ k : Fin 4096, x (ix2 p k) * a (ix2 k r)) * c (ix2 r o)) + d (ix2 0 o) := by
  unfold k0_pay1
  rw [addf_apply, exp_at, shapeCast_self, shapeCast_self, shapeCast_self, bias_at]
  refine congrArg (· + d (ix2 0 o)) (Finset.sum_congr rfl fun r _ => ?_)
  rw [truncf_apply, truncf_apply, proj_at]
  rfl

end Cert.LowRank.Payload

end
-- ==== Proof.KernelValue.lean ====
/-
  The kernel's output array is the factored arrangement of the inputs.

  The grid has 16 points; point `t` works on tokens `512 t … 512 t + 511`. It reads that block of tokens, and the
  whole of three small arrays the host prepared before the launch: the input-side factor reshaped to 8 by 4096 and
  transposed (so its entry `(k, r)` is the stored `(r, k, 0)`), the output-side factor reshaped to 4096 by 8 and
  transposed (entry `(r, o)` is the stored `(0, o, r)`), and the bias as a row (entry `(0, o)` is the stored `o`).
  What the point writes back is therefore its block of the factored arrangement of the four inputs; the 16 blocks
  tile the 8192 rows, so the whole array ends at that arrangement.
-/
import proofs.«141252_j10531259810490_1_alg».proof.Proof.Gen.KernelIdeal.Value
import proofs.«141252_j10531259810490_1_alg».proof.Proof.Payload
import proofs.«141252_j10531259810490_1_alg».proof.Proof.Spec
import Idealize.ShloMosaic.Lib.Pipeline.Value
import Idealize.ShloMosaic.Lib.StableHlo.Run
import Idealize.ShloMosaic.Lib.ValueIdx

set_option maxRecDepth 16384

noncomputable section

namespace Cert.LowRank.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The host's re-laid factors and bias, read at an index -/

/-- The input-side factor reshaped to a matrix and transposed, at `(k, r)`, is the stored entry `(r, k, 0)`. -/
theorem factorW_T_at (w : FVec Ideal S8x4096x1 .f32) (k : Fin 4096) (r : Fin 8) :
    transpose S4096x8 [1, 0] (shapeCast S8x4096 w shapeCasts_S8x4096x1_S8x4096) transposes_S8x4096_S4096x8_1_0 (ix2 k r)
      = w (ix3 r k 0) := by
  rw [transpose_apply [1, 0] _ transposes_S8x4096_S4096x8_1_0 (ix2 k r) (ix2 r k) (fun b => match b with
    | ⟨0, _⟩ => rfl
    | ⟨1, _⟩ => rfl)]
  exact shapeCast_apply w shapeCasts_S8x4096x1_S8x4096 (ix2 r k) (ix3 r k 0)
    (by rewrite [Shape.rowMajor_val_three, Shape.rowMajor_val_two]; show (r.val * 4096 + k.val) * 1 + 0 = r.val * 4096 + k.val; omega)

/-- The output-side factor reshaped to a matrix and transposed, at `(r, o)`, is the stored entry `(0, o, r)`. -/
theorem factorU_T_at (u : FVec Ideal S1x4096x8 .f32) (r : Fin 8) (o : Fin 4096) :
    transpose S8x4096 [1, 0] (shapeCast S4096x8 u shapeCasts_S1x4096x8_S4096x8) transposes_S4096x8_S8x4096_1_0 (ix2 r o)
      = u (ix3 0 o r) := by
  rw [transpose_apply [1, 0] _ transposes_S4096x8_S8x4096_1_0 (ix2 r o) (ix2 o r) (fun b => match b with
    | ⟨0, _⟩ => rfl
    | ⟨1, _⟩ => rfl)]
  exact shapeCast_apply u shapeCasts_S1x4096x8_S4096x8 (ix2 o r) (ix3 0 o r)
    (by rewrite [Shape.rowMajor_val_three, Shape.rowMajor_val_two]; show (0 * 4096 + o.val) * 8 + r.val = o.val * 8 + r.val; omega)

/-- The bias reshaped to a row, at `(0, o)`, is the stored entry `o`. -/
theorem biasRow_at (b : FVec Ideal S4096 .f32) (o : Fin 4096) :
    shapeCast S1x4096 b shapeCasts_S4096_S1x4096 (ix2 0 o) = b (ix1 o) :=
  shapeCast_apply b shapeCasts_S4096_S1x4096 (ix2 0 o) (ix1 o)
    (by rewrite [Shape.rowMajor_val_two, Shape.rowMajor_val_one]; show o.val = 0 * 4096 + o.val; omega)

variable (m : (ℓ : Loc nD τ sig) → Buf (Elt Ideal) ℓ) (ρ : Dev nD → PrngReg)

/-! ## What the region finds in the three arrays the host wrote -/

theorem V_factorW (c : Dev nD) : (V m c main_v3 : S4096x8.Idx → EReal)
    = transpose S4096x8 [1, 0] (shapeCast S8x4096 (m ((c : Thread nD τ).loc main_arg2)) shapeCasts_S8x4096x1_S8x4096) transposes_S8x4096_S4096x8_1_0 := by
  dsimp only [Gen.V, Gen.hostOps0]; after_results; rfl

theorem V_factorU (c : Dev nD) : (V m c main_v2 : S8x4096.Idx → EReal)
    = transpose S8x4096 [1, 0] (shapeCast S4096x8 (m ((c : Thread nD τ).loc main_arg1)) shapeCasts_S1x4096x8_S4096x8) transposes_S4096x8_S8x4096_1_0 := by
  dsimp only [Gen.V, Gen.hostOps0]; after_results; rfl

theorem V_biasRow (c : Dev nD) : (V m c main_v4 : S1x4096.Idx → EReal)
    = shapeCast S1x4096 (m ((c : Thread nD τ).loc main_arg3)) shapeCasts_S4096_S1x4096 := by
  dsimp only [Gen.V, Gen.hostOps0]; after_results; rfl

/-! ## The windows' index maps over the grid -/

/-- Over the 16 grid points: the token window and the output window sit at block `(t, 0)`; the three resident
    windows sit at block `(0, 0)` throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The token row that row `p` of grid point `t`'s block is. -/
def row (t : Fin cfg0.N) (p : Fin 512) : Fin 8192 :=
  ⟨t.val * 512 + p.val, by have ht : t.val < 16 := lt_of_lt_of_eq t.isLt N_0; have := p.isLt; omega⟩

/-! ## The four input blocks at a grid point, read at an index -/

/-- Row `p` of the token block at point `t` is token `512 t + p`. -/
theorem tokens_at (c : Dev nD) (t : Fin cfg0.N) (p : Fin 512) (k : Fin 4096) :
    iblk m c 0 t (ix2 p k) = m ((c : Thread nD τ).loc main_arg0) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * k.val = k.val; omega

/-- The resident input-side block, at `(k, r)`, is the stored factor entry `(r, k, 0)`. -/
theorem factorW_blk_at (c : Dev nD) (t : Fin cfg0.N) (k : Fin 4096) (r : Fin 8) :
    iblk m c 1 t (ix2 k r) = m ((c : Thread nD τ).loc main_arg2) (ix3 r k 0) := by
  obtain ⟨-, -, e0, e1, -⟩ := idx_facts t
  show V m c main_v3 (((cfg0.win 1).blk t).view.emb (ix2 k r)) = _
  have he : ((cfg0.win 1).blk t).view.emb (ix2 k r) = ix2 k r := funext fun a => Fin.ext (by
    match a with
    | ⟨0, _⟩ => show win0_1.index t (0 : Fin 2) * 4096 + 1 * k.val = k.val; omega
    | ⟨1, _⟩ => show win0_1.index t (1 : Fin 2) * 8 + 1 * r.val = r.val; omega)
  rw [he, V_factorW]
  exact factorW_T_at _ k r

/-- The resident output-side block, at `(r, o)`, is the stored factor entry `(0, o, r)`. -/
theorem factorU_blk_at (c : Dev nD) (t : Fin cfg0.N) (r : Fin 8) (o : Fin 4096) :
    iblk m c 2 t (ix2 r o) = m ((c : Thread nD τ).loc main_arg1) (ix3 0 o r) := by
  obtain ⟨-, -, -, -, e0, e1, -⟩ := idx_facts t
  show V m c main_v2 (((cfg0.win 2).blk t).view.emb (ix2 r o)) = _
  have he : ((cfg0.win 2).blk t).view.emb (ix2 r o) = ix2 r o := funext fun a => Fin.ext (by
    match a with
    | ⟨0, _⟩ => show win0_2.index t (0 : Fin 2) * 8 + 1 * r.val = r.val; omega
    | ⟨1, _⟩ => show win0_2.index t (1 : Fin 2) * 4096 + 1 * o.val = o.val; omega)
  rw [he, V_factorU]
  exact factorU_T_at _ r o

/-- The resident bias row, at `(0, o)`, is the stored bias entry `o`. -/
theorem bias_blk_at (c : Dev nD) (t : Fin cfg0.N) (o : Fin 4096) :
    iblk m c 3 t (ix2 0 o) = m ((c : Thread nD τ).loc main_arg3) (ix1 o) := by
  obtain ⟨-, -, -, -, -, -, e0, e1, -⟩ := idx_facts t
  show V m c main_v4 (((cfg0.win 3).blk t).view.emb (ix2 0 o)) = _
  have he : ((cfg0.win 3).blk t).view.emb (ix2 (0 : Fin 1) o) = ix2 0 o := funext fun a => Fin.ext (by
    match a with
    | ⟨0, _⟩ => show win0_3.index t (0 : Fin 2) * 1 + 1 * 0 = 0; omega
    | ⟨1, _⟩ => show win0_3.index t (1 : Fin 2) * 4096 + 1 * o.val = o.val; omega)
  rw [he, V_biasRow]
  exact biasRow_at _ o

/-! ## What a point writes back, the cover, and the array after the run -/

theorem origin2 : (![0, 0] : Fin 2 → Nat) = fun _ => 0 := funext fun a => by fin_cases a <;> rfl

/-- The factored arrangement of the four inputs as launched, on core `c`. -/
abbrev result (c : Dev nD) : S8192x4096.Idx → EReal :=
  Cert.LowRank.factored (m ((c : Thread nD τ).loc main_arg0)) (m ((c : Thread nD τ).loc main_arg1))
    (m ((c : Thread nD τ).loc main_arg2)) (m ((c : Thread nD τ).loc main_arg3))

/-- What point `t` writes back is its block of the factored arrangement. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin2]
  simp only [View.ld_unit_zero (S := S512x4096) origin2, View.ld_unit_zero (S := S4096x8) origin2,
    View.ld_unit_zero (S := S8x4096) origin2, View.ld_unit_zero (S := S1x4096) origin2]
  funext j
  obtain ⟨p, o, rfl⟩ : ∃ (p : Fin 512) (o : Fin 4096), j = ix2 p o := ⟨j 0, j 1, eq_ix2 j⟩
  obtain ⟨-, -, -, -, -, -, -, -, e0, e1⟩ := idx_facts t
  have he : ((cfg0.win 4).blk t).view.emb (ix2 p o) = ix2 (row t p) o := funext fun a => Fin.ext (by
    match a with
    | ⟨0, _⟩ => show win0_4.index t (0 : Fin 2) * 512 + 1 * p.val = t.val * 512 + p.val; omega
    | ⟨1, _⟩ => show win0_4.index t (1 : Fin 2) * 4096 + 1 * o.val = o.val; omega)
  show k0_pay1 (F := Ideal) (iblk m c 0 t) (iblk m c 1 t) (iblk m c 2 t) (iblk m c 3 t) (ix2 p o)
    = result m c (((cfg0.win 4).blk t).view.emb (ix2 p o))
  rw [he]
  refine (Cert.LowRank.Payload.pay_at (iblk m c 0 t) (iblk m c 1 t) (iblk m c 2 t) (iblk m c 3 t) p o).trans ?_
  show _ = Cert.LowRank.factoredAt _ _ _ _ (row t p) o
  unfold Cert.LowRank.factoredAt
  rw [bias_blk_at m c t o]
  refine congrArg (· + m ((c : Thread nD τ).loc main_arg3) (ix1 o)) (Finset.sum_congr rfl fun r _ => ?_)
  rw [factorU_blk_at m c t r o]
  refine congrArg (· * m ((c : Thread nD τ).loc main_arg1) (ix3 0 o r)) (Finset.sum_congr rfl fun k _ => ?_)
  rw [tokens_at m c t p k, factorW_blk_at m c t k r]

/-- An index of the output array is in point `t`'s block iff each coordinate is in the block's range. -/
theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v5).slice (win0_4.rect t)).set ↔ _
  rw [View.set_slice_whole, Rect.mem_set_unit]
  exact Iff.rfl

/-- Every token row lies in the block of the point `row / 512`: the 16 blocks tile the array. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  let t : Fin cfg0.N := ⟨(i 0).val / 512, by rw [show cfg0.N = 16 from N_0]; omega⟩
  obtain ⟨-, -, -, -, -, -, -, -, e0, e1⟩ := idx_facts t
  have ht : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- The output array after the run is the factored arrangement of the inputs. -/
theorem final (c : Dev nD) : (dats m 0 c).arrAt 4 cfg0.N = result m c :=
  (dats m 0 c).arrAt_eq_of_cover 4 (result m c) (fun t _ => flushed_eq m c t) cover

/-- The kernel's run: it terminates with the result array at the factored arrangement and the inputs unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.LowRank.KernelValue

end
-- ==== Proof.lean ====
/-
  A linear layer with a rank-8 weight: the kernel against its dense reference.

  The weight matrix is the product of a 4096 by 8 factor `u` and an 8 by 4096 factor `w`. The reference forms the
  full weight `∑ r, u (o, r) * w (r, k)`, contracts each token against it and adds the bias. The kernel never forms
  the weight: block of 512 tokens by block, it projects each token onto the 8 rank directions,
  `∑ k, x (p, k) * w (r, k)`, expands the result through `u`, and adds the bias. Both are the double sum
  `∑ r k, x (p, k) * w (r, k) * u (o, r)` plus the bias; the passage between them distributes a product over a sum
  and exchanges the two sums, which is sound because the precondition makes every entry a real number (on the
  extended reals distributivity fails at the infinities). The narrowing casts in the kernel are the identity at the
  ideal instance, and the idealization rewrote nothing, so there is nothing to preserve.
-/
import proofs.«141252_j10531259810490_1_alg».proof.Defs
import proofs.«141252_j10531259810490_1_alg».proof.Proof.Gen.Kernel
import proofs.«141252_j10531259810490_1_alg».proof.Proof.Gen.Kernel.Skeleton
import proofs.«141252_j10531259810490_1_alg».proof.Proof.Gen.Kernel.Launch
import proofs.«141252_j10531259810490_1_alg».proof.Proof.Gen.Kernel.Points
import proofs.«141252_j10531259810490_1_alg».proof.Proof.Gen.Kernel.Frame
import proofs.«141252_j10531259810490_1_alg».proof.Proof.Gen.KernelIdeal
import proofs.«141252_j10531259810490_1_alg».proof.Proof.Gen.KernelIdeal.Skeleton
import proofs.«141252_j10531259810490_1_alg».proof.Proof.Gen.KernelIdeal.Launch
import proofs.«141252_j10531259810490_1_alg».proof.Proof.Gen.KernelIdeal.Points
import proofs.«141252_j10531259810490_1_alg».proof.Proof.Gen.KernelIdeal.Frame
import proofs.«141252_j10531259810490_1_alg».proof.Proof.Gen.ReferenceIdeal
import proofs.«141252_j10531259810490_1_alg».proof.Proof.Gen.Pre_finite_inputs
import proofs.«141252_j10531259810490_1_alg».proof.Proof.Gen.KernelIdeal.Value
import proofs.«141252_j10531259810490_1_alg».proof.Proof.Gen.ReferenceIdeal.Run
import proofs.«141252_j10531259810490_1_alg».proof.Proof.Gen.ReferenceIdeal.Read
import proofs.«141252_j10531259810490_1_alg».proof.Proof.Spec
import proofs.«141252_j10531259810490_1_alg».proof.Proof.Finite
import proofs.«141252_j10531259810490_1_alg».proof.Proof.RefValue
import proofs.«141252_j10531259810490_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its inputs alone. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree and are finite, the kernel ends at the factored arrangement and the reference at the
    dense one, and for real entries the two are the same number at every token and output feature. -/
theorem algebraic : Cert.algebraic_KernelIdeal_ReferenceIdeal := by
  intro m ρ m' ρ' hpre hagree
  refine ⟨fun c => Cert.LowRank.KernelValue.result m c, Cert.LowRank.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2]
  obtain ⟨hx, hu, hw, -⟩ := Cert.LowRank.Finite.real_of_pre _ _ _ _ (hpre c)
  funext i
  obtain ⟨p, o, rfl⟩ : ∃ (p : Fin 8192) (o : Fin 4096), i = ix2 p o := ⟨i 0, i 1, eq_ix2 i⟩
  rw [Cert.LowRank.RefValue.result_at]
  exact (Cert.LowRank.factoredAt_eq_denseAt _ _ _ _ hx hu hw p o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
